-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x1 : Shape := ⟨2, ![1, 1]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S512x512 : Shape := ⟨2, ![512, 512]⟩
abbrev S1x512 : Shape := ⟨2, ![1, 512]⟩
abbrev S1 : Shape := ⟨1, ![1]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x1, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c512_i32_2 : BitVec 32 := 512#32
  let v7 : BitVec 32 := Scalar.muli arg1 c512_i32_2
  v7
def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v9 : Index := Scalar.indexCast v6
  let c0 : Index := 0#32
  ![v9.toNat, 0]
def k0_off2 (i : grid0.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v11 : Index := Scalar.indexCast v8
  let c0_3 : Index := 0#32
  ![v11.toNat, 0]
def k0_cond2 (i : grid0.Coords) : BitVec 1 :=
  let arg0 : BitVec 32 := BitVec.ofNat 32 (i 0).val
  let c15_i32 : BitVec 32 := 15#32
  let v137 : BitVec 1 := Scalar.cmpi .eq arg0 c15_i32
  let arg1 : BitVec 32 := BitVec.ofNat 32 (i 1).val
  let c15_i32_53 : BitVec 32 := 15#32
  let v138 : BitVec 1 := Scalar.cmpi .eq arg1 c15_i32_53
  let v139 : BitVec 1 := Scalar.andi v137 v138
  let v140 : BitVec 32 := Scalar.extui v139
  let c0_i32_54 : BitVec 32 := 0#32
  let v141 : BitVec 1 := Scalar.cmpi .ne v140 c0_i32_54
  v141

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512x128 : 0 < S512x128.numel
  reduces_S512x128_S512 : S512x128.Reduces [1] S512
  shapeCasts_S512_S512x1 : S512.ShapeCasts S512x1
  bitsLt_bf16_f32 : FTy.bits .bf16 < FTy.bits .f32
  transposes_S512x128_p1_0_S128x512 : S512x128.Transposes [1, 0] S128x512
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x128_S128x512_S512x512_1_0_0_1_n_n_wf : DotDims.WF S512x128 S128x512 S512x512 [1] [0] [0] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x128.size a ≤ S8192x128.size a
  k0_off2_inb : ∀ i : grid0.Coords, ∀ a, (k0_off2 i) a + S512x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 135
  | .vmem => 0
  | .smem => 0
  | _ => 0

abbrev hbmTy0_0 (i : Nat) : BufTy := match i % 128 with
  | 0 => ⟨S8192x128, .f32⟩
  | 1 => ⟨S8192x128, .f32⟩
  | 2 => ⟨S8192x128, .f32⟩
  | 3 => ⟨S_, .f32⟩
  | 4 => ⟨S8192, .f32⟩
  | 5 => ⟨S8192x1, .f32⟩
  | 6 => ⟨S8192x128, .f32⟩
  | 7 => ⟨S_, .f32⟩
  | 8 => ⟨S8192, .f32⟩
  | 9 => ⟨S1x8192, .f32⟩
  | 10 => ⟨S8192x8192, .f32⟩
  | 11 => ⟨S8192x8192, .f32⟩
  | 12 => ⟨S8192x8192, .f32⟩
  | 13 => ⟨S128x8192, .f32⟩
  | 14 => ⟨S8192x8192, .f32⟩
  | 15 => ⟨S_, .f32⟩
  | 16 => ⟨S8192x8192, .f32⟩
  | 17 => ⟨S8192x8192, .f32⟩
  | 18 => ⟨S8192x8192, .f32⟩
  | 19 => ⟨S_, .f32⟩
  | 20 => ⟨S8192x8192, .f32⟩
  | 21 => ⟨S8192x8192, .f32⟩
  | 22 => ⟨S_, .f32⟩
  | 23 => ⟨S8192x8192, .f32⟩
  | 24 => ⟨S8192x8192, .i1⟩
  | 25 => ⟨S_, .f32⟩
  | 26 => ⟨S_, .f32⟩
  | 27 => ⟨S8192x8192, .f32⟩
  | 28 => ⟨S8192x8192, .f32⟩
  | 29 => ⟨S_, .f32⟩
  | 30 => ⟨S8192x8192, .f32⟩
  | 31 => ⟨S8192x8192, .i1⟩
  | 32 => ⟨S8192x8192, .f32⟩
  | 33 => ⟨S_, .f32⟩
  | 34 => ⟨S_, .f32⟩
  | 35 => ⟨S8192x8192, .f32⟩
  | 36 => ⟨S8192x8192, .f32⟩
  | 37 => ⟨S_, .f32⟩
  | 38 => ⟨S8192x8192, .f32⟩
  | 39 => ⟨S8192x8192, .f32⟩
  | 40 => ⟨S8192x8192, .f32⟩
  | 41 => ⟨S8192x128, .f32⟩
  | 42 => ⟨S_, .f32⟩
  | 43 => ⟨S8192, .f32⟩
  | 44 => ⟨S8192x1, .f32⟩
  | 45 => ⟨S8192x128, .f32⟩
  | 46 => ⟨S_, .f32⟩
  | 47 => ⟨S8192, .f32⟩
  | 48 => ⟨S1x8192, .f32⟩
  | 49 => ⟨S8192x8192, .f32⟩
  | 50 => ⟨S8192x8192, .f32⟩
  | 51 => ⟨S8192x8192, .f32⟩
  | 52 => ⟨S128x8192, .f32⟩
  | 53 => ⟨S8192x8192, .f32⟩
  | 54 => ⟨S_, .f32⟩
  | 55 => ⟨S8192x8192, .f32⟩
  | 56 => ⟨S8192x8192, .f32⟩
  | 57 => ⟨S8192x8192, .f32⟩
  | 58 => ⟨S_, .f32⟩
  | 59 => ⟨S8192x8192, .f32⟩
  | 60 => ⟨S8192x8192, .f32⟩
  | 61 => ⟨S_, .f32⟩
  | 62 => ⟨S8192x8192, .f32⟩
  | 63 => ⟨S8192x8192, .i1⟩
  | 64 => ⟨S_, .f32⟩
  | 65 => ⟨S_, .f32⟩
  | 66 => ⟨S8192x8192, .f32⟩
  | 67 => ⟨S8192x8192, .f32⟩
  | 68 => ⟨S_, .f32⟩
  | 69 => ⟨S8192x8192, .f32⟩
  | 70 => ⟨S8192x8192, .i1⟩
  | 71 => ⟨S8192x8192, .f32⟩
  | 72 => ⟨S_, .f32⟩
  | 73 => ⟨S_, .f32⟩
  | 74 => ⟨S8192x8192, .f32⟩
  | 75 => ⟨S8192x8192, .f32⟩
  | 76 => ⟨S_, .f32⟩
  | 77 => ⟨S8192x8192, .f32⟩
  | 78 => ⟨S8192x8192, .f32⟩
  | 79 => ⟨S8192x8192, .f32⟩
  | 80 => ⟨S8192x128, .f32⟩
  | 81 => ⟨S_, .f32⟩
  | 82 => ⟨S8192, .f32⟩
  | 83 => ⟨S8192x1, .f32⟩
  | 84 => ⟨S8192x128, .f32⟩
  | 85 => ⟨S_, .f32⟩
  | 86 => ⟨S8192, .f32⟩
  | 87 => ⟨S1x8192, .f32⟩
  | 88 => ⟨S8192x8192, .f32⟩
  | 89 => ⟨S8192x8192, .f32⟩
  | 90 => ⟨S8192x8192, .f32⟩
  | 91 => ⟨S128x8192, .f32⟩
  | 92 => ⟨S8192x8192, .f32⟩
  | 93 => ⟨S_, .f32⟩
  | 94 => ⟨S8192x8192, .f32⟩
  | 95 => ⟨S8192x8192, .f32⟩
  | 96 => ⟨S8192x8192, .f32⟩
  | 97 => ⟨S_, .f32⟩
  | 98 => ⟨S8192x8192, .f32⟩
  | 99 => ⟨S8192x8192, .f32⟩
  | 100 => ⟨S_, .f32⟩
  | 101 => ⟨S8192x8192, .f32⟩
  | 102 => ⟨S8192x8192, .i1⟩
  | 103 => ⟨S_, .f32⟩
  | 104 => ⟨S_, .f32⟩
  | 105 => ⟨S8192x8192, .f32⟩
  | 106 => ⟨S8192x8192, .f32⟩
  | 107 => ⟨S_, .f32⟩
  | 108 => ⟨S8192x8192, .f32⟩
  | 109 => ⟨S8192x8192, .i1⟩
  | 110 => ⟨S8192x8192, .f32⟩
  | 111 => ⟨S_, .f32⟩
  | 112 => ⟨S_, .f32⟩
  | 113 => ⟨S8192x8192, .f32⟩
  | 114 => ⟨S8192x8192, .f32⟩
  | 115 => ⟨S_, .f32⟩
  | 116 => ⟨S8192x8192, .f32⟩
  | 117 => ⟨S8192x8192, .f32⟩
  | 118 => ⟨S8192x8192, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_call2_v0 : Ref sig .tc := ⟨.hbm, 65, rfl⟩
abbrev main_call2_v1 : Ref sig .tc := ⟨.hbm, 66, rfl⟩
abbrev main_v44 : Ref sig .tc := ⟨.hbm, 67, rfl⟩
abbrev main_cst_14 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_15 : Ref sig .tc := ⟨.hbm, 72, rfl⟩
abbrev main_call3_v0 : Ref sig .tc := ⟨.hbm, 73, rfl⟩
abbrev main_call3_v1 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_17 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_18 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev main_cst_21 : Ref sig .tc := ⟨.hbm, 100, rfl⟩
abbrev main_v68 : Ref sig .tc := ⟨.hbm, 101, rfl⟩
abbrev main_v69 : Ref sig .tc := ⟨.hbm, 102, rfl⟩
abbrev main_cst_22 : Ref sig .tc := ⟨.hbm, 103, rfl⟩
abbrev main_call4_v0 : Ref sig .tc := ⟨.hbm, 104, rfl⟩
abbrev main_call4_v1 : Ref sig .tc := ⟨.hbm, 105, rfl⟩
abbrev main_v70 : Ref sig .tc := ⟨.hbm, 106, rfl⟩
abbrev main_cst_23 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_24 : Ref sig .tc := ⟨.hbm, 111, rfl⟩
abbrev main_call5_v0 : Ref sig .tc := ⟨.hbm, 112, rfl⟩
abbrev main_call5_v1 : Ref sig .tc := ⟨.hbm, 113, rfl⟩
abbrev main_v74 : Ref sig .tc := ⟨.hbm, 114, rfl⟩
abbrev main_cst_25 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_26 : Ref sig .tc := ⟨.hbm, 119, rfl⟩
abbrev main_v78 : Ref sig .tc := ⟨.hbm, 120, rfl⟩
abbrev main_cst_27 : Ref sig .tc := ⟨.hbm, 121, rfl⟩
abbrev main_v79 : Ref sig .tc := ⟨.hbm, 122, rfl⟩
abbrev main_cst_28 : Ref sig .tc := ⟨.hbm, 123, rfl⟩
abbrev main_v80 : Ref sig .tc := ⟨.hbm, 124, rfl⟩
abbrev main_cst_29 : Ref sig .tc := ⟨.hbm, 125, rfl⟩
abbrev main_v81 : Ref sig .tc := ⟨.hbm, 126, rfl⟩
abbrev main_v82 : Ref sig .tc := ⟨.hbm, 127, rfl⟩
abbrev main_cst_30 : Ref sig .tc := ⟨.hbm, 128, rfl⟩
abbrev main_v83 : Ref sig .tc := ⟨.hbm, 129, rfl⟩
abbrev main_cst_31 : Ref sig .tc := ⟨.hbm, 130, rfl⟩
abbrev main_v84 : Ref sig .tc := ⟨.hbm, 131, rfl⟩
abbrev main_cst_32 : Ref sig .tc := ⟨.hbm, 132, rfl⟩
abbrev main_v85 : Ref sig .tc := ⟨.hbm, 133, rfl⟩
abbrev main_v86 : Ref sig .tc := ⟨.hbm, 134, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The mathematics both programs compute, with no program in sight.

  For two arrays a, b of 8192 rows and 128 columns over the extended reals, the Gaussian-of-distance kernel at a
  pair of rows u = a[r], v = b[s] is

      pairKer u v = exp(-1/2 · dist),   dist = if d2 > 0 then sqrt(if d2 > 0 then d2 else 1) else 0,
      d2 = max ((∑ₖ uₖ² + ∑ₖ vₖ²) - 2 · ∑ₖ uₖ vₖ) 0,

  and the quantity of interest is the sum of pairKer over all 8192 × 8192 pairs of rows.  One program adds the
  pairs up all at once; the other walks the 16 × 16 grid of 512 × 512 tiles in row-major order and adds each tile's
  sum to a running total.  Addition on the extended reals is commutative and associative, so regrouping a finite
  sum needs no finiteness: the total is the sum of the tile sums.
-/
import Idealize.ShloMosaic.PureOps.Ideal
import Idealize.ShloMosaic.PureOps.Ideal.Laws
import Idealize.ShloMosaic.Lib.ValueIdx

noncomputable section

open scoped BigOperators

namespace Cert.Mmd

open Idealize.ShloMosaic Idealize.ShloMosaic.ValueIdx

/-- The Gaussian of the distance, from the two squared norms and the inner product. -/
def gaussOf (sa sb d : EReal) : EReal :=
  Ideal.exp (Ideal.ofBits .f32 0xBF000000#32 *
    Scalar.select
      (Ideal.cmp .ogt (max ((sa + sb) - Ideal.ofBits .f32 0x40000000#32 * d) (Ideal.ofBits .f32 0x00000000#32))
        (Ideal.ofBits .f32 0x00000000#32))
      (Ideal.sqrt (Scalar.select
        (Ideal.cmp .ogt (max ((sa + sb) - Ideal.ofBits .f32 0x40000000#32 * d) (Ideal.ofBits .f32 0x00000000#32))
          (Ideal.ofBits .f32 0x00000000#32))
        (max ((sa + sb) - Ideal.ofBits .f32 0x40000000#32 * d) (Ideal.ofBits .f32 0x00000000#32))
        (Ideal.ofBits .f32 0x3F800000#32)))
      (Ideal.ofBits .f32 0x00000000#32))

/-- The kernel value of a pair of rows. -/
def pairKer (u v : Fin 128 → EReal) : EReal :=
  gaussOf (∑ k, u k * u k) (∑ k, v k * v k) (∑ k, u k * v k)

/-- Row r of an array with 128 columns. -/
def rowOf {n : Nat} (a : (⟨2, ![n, 128]⟩ : Shape).Idx → EReal) (r : Fin n) : Fin 128 → EReal :=
  fun k => a (ix2 r k)

/-- The sum over all pairs of rows. -/
def total (a b : (⟨2, ![8192, 128]⟩ : Shape).Idx → EReal) : EReal :=
  ∑ r : Fin 8192, ∑ s : Fin 8192, pairKer (rowOf a r) (rowOf b s)

/-- Row p of the i-th band of 512 rows. -/
def rowIn (i : Fin 16) (p : Fin 512) : Fin 8192 := ⟨512 * i.val + p.val, by omega⟩

/-- The sum over the pairs of tile (i, j). -/
def tile (a b : (⟨2, ![8192, 128]⟩ : Shape).Idx → EReal) (i j : Fin 16) : EReal :=
  ∑ p : Fin 512, ∑ q : Fin 512, pairKer (rowOf a (rowIn i p)) (rowOf b (rowIn j q))

/-- The tile the n-th grid point of the row-major walk works on. -/
def tileAt (a b : (⟨2, ![8192, 128]⟩ : Shape).Idx → EReal) (n : ℕ) : EReal :=
  tile a b ⟨n / 16 % 16, Nat.mod_lt _ (by decide)⟩ ⟨n % 16, Nat.mod_lt _ (by decide)⟩

/-- An index below m·n is a quotient below m and a remainder below n. -/
def splitEquiv (m n N : ℕ) (hN : N = m * n) (hn : 0 < n) : Fin N ≃ Fin m × Fin n where
  toFun t := (⟨t.val / n, by
      have := t.isLt; subst hN; exact Nat.div_lt_of_lt_mul (lt_of_lt_of_eq this (Nat.mul_comm m n))⟩,
    ⟨t.val % n, Nat.mod_lt _ hn⟩)
  invFun x := ⟨n * x.1.val + x.2.val, by
      have h1 := x.1.isLt; have h2 := x.2.isLt; subst hN
      calc n * x.1.val + x.2.val < n * x.1.val + n := by omega
        _ = n * (x.1.val + 1) := by ring
        _ ≤ n * m := Nat.mul_le_mul_left _ h1
        _ = m * n := Nat.mul_comm _ _⟩
  left_inv t := by
    apply Fin.ext; show n * (t.val / n) + t.val % n = t.val; exact Nat.div_add_mod _ _
  right_inv x := by
    have h2 := x.2.isLt
    apply Prod.ext <;> apply Fin.ext
    · show (n * x.1.val + x.2.val) / n = x.1.val
      rw [Nat.mul_add_div hn, Nat.div_eq_of_lt h2, Nat.add_zero]
    · show (n * x.1.val + x.2.val) % n = x.2.val
      rw [Nat.mul_add_mod, Nat.mod_eq_of_lt h2]

/-- A sum over 8192 rows, band by band. -/
theorem sum_rows (f : Fin 8192 → EReal) : ∑ r, f r = ∑ i : Fin 16, ∑ p : Fin 512, f (rowIn i p) := by
  rw [← Fintype.sum_prod_type']
  refine Fintype.sum_equiv (splitEquiv 16 512 8192 (by decide) (by decide)) _ _ fun r => ?_
  exact congrArg f (Fin.ext (show r.val = 512 * (r.val / 512) + r.val % 512 from (Nat.div_add_mod _ _).symm))

/-- The total is the sum of the 16 × 16 tile sums. -/
theorem total_eq_tiles (a b : (⟨2, ![8192, 128]⟩ : Shape).Idx → EReal) :
    total a b = ∑ i : Fin 16, ∑ j : Fin 16, tile a b i j := by
  unfold total tile
  rw [sum_rows]
  refine Finset.sum_congr rfl fun i _ => ?_
  have e1 : ∀ p : Fin 512, (∑ s : Fin 8192, pairKer (rowOf a (rowIn i p)) (rowOf b s))
      = ∑ j : Fin 16, ∑ q : Fin 512, pairKer (rowOf a (rowIn i p)) (rowOf b (rowIn j q)) := fun p => sum_rows _
  simp only [e1]
  rw [Finset.sum_comm]

/-- The row-major walk over the 256 grid points meets every tile once. -/
theorem sum_points (a b : (⟨2, ![8192, 128]⟩ : Shape).Idx → EReal) :
    ∑ s ∈ Finset.range 256, tileAt a b s = total a b := by
  rw [total_eq_tiles, ← Fin.sum_univ_eq_sum_range (fun s => tileAt a b s) 256, ← Fintype.sum_prod_type']
  refine Fintype.sum_equiv (splitEquiv 16 16 256 (by decide) (by decide)) _ _ fun t => ?_
  unfold tileAt
  have h : t.val / 16 % 16 = t.val / 16 := Nat.mod_eq_of_lt (by have := t.isLt; omega)
  show tile a b ⟨t.val / 16 % 16, _⟩ ⟨t.val % 16, _⟩ = tile a b ⟨t.val / 16, _⟩ ⟨t.val % 16, _⟩
  congr 2

/-- The mean over the 8192² pairs of a sum that started from the zero word: division by 2²⁶. -/
def meanOf (s : EReal) : EReal :=
  Ideal.div (Ideal.ofBits .f32 0x00000000#32 + s) (Ideal.ofBits .f32 0x4C800000#32)

/-- The result: mean of the x–x kernel matrix plus mean of the y–y one minus twice the mean of the x–y one. -/
def mmd (x y : (⟨2, ![8192, 128]⟩ : Shape).Idx → EReal) : EReal :=
  (meanOf (total x x) + meanOf (total y y)) - Ideal.ofBits .f32 0x40000000#32 * meanOf (total x y)

end Cert.Mmd

end
-- ==== Proof.RefValue.lean ====
/-
  The reference's result read index by index.

  Each of the three kernel matrices has, at the pair of rows (r, s), the Gaussian-of-distance value of the two rows:
  the squared norms are row sums of squares that start from the zero word (which is 0), the inner product is the
  contraction of row r of the left array with column s of the transposed right array, and the remaining operations
  act element by element.  The x–x and y–y matrices are the x–y matrix with the same array on both sides.  Summing a
  matrix over all its indices is the double sum over its rows and columns, and the last eight scalar operations form
  the three means and combine them.
-/
import proofs.«146267_j26096221290993_1_alg».proof.Proof.Gen.ReferenceIdeal.Run
import proofs.«146267_j26096221290993_1_alg».proof.Proof.Gen.ReferenceIdeal.Read
import proofs.«146267_j26096221290993_1_alg».proof.Proof.Spec
import Idealize.ShloMosaic.Lib.ValueIdx
import Idealize.ShloMosaic.PureOps.Ideal.Laws

noncomputable section

namespace Cert.ReferenceIdeal.RefValue
open Cert.ReferenceIdeal Cert.ReferenceIdeal.Gen Idealize.ShloMosaic
open Cert.ReferenceIdeal.Read Idealize.ShloMosaic.ValueIdx

/-! ## The x–y matrix at a pair of rows -/

/-- The squared norm of row r of the left array, spread along the columns: ∑ₖ x[r,k]². -/
theorem sq_left (x0 : (⟨S8192x128, .f32⟩ : BufTy).Contents (Elt Ideal)) (r s : Fin 8192) :
    val_main_v58 (F := Ideal) x0 (ix2 r s) = ∑ k : Fin 128, x0 (ix2 r k) * x0 (ix2 r k) := by
  rw [val_main_v58_apply, val_main_v54_apply, val_main_v53_apply, val_main_cst_17_apply, Ideal.ofBits_def,
    Ideal.ofBits_zero_f32, zero_add]
  refine Finset.sum_congr rfl fun k _ => ?_
  have e : idx_main_v53 (idx_main_v54 (idx_main_v58 (ix2 r s))) k = ix2 r k :=
    funext fun a => Fin.ext (by match a with | ⟨0, _⟩ => rfl | ⟨1, _⟩ => rfl)
  rw [val_main_v52_apply, Ideal.mulf_def, e]

/-- The squared norm of row s of the right array, spread along the rows: ∑ₖ y[s,k]². -/
theorem sq_right (x1 : (⟨S8192x128, .f32⟩ : BufTy).Contents (Elt Ideal)) (r s : Fin 8192) :
    val_main_v59 (F := Ideal) x1 (ix2 r s) = ∑ k : Fin 128, x1 (ix2 s k) * x1 (ix2 s k) := by
  rw [val_main_v59_apply, val_main_v57_apply, val_main_v56_apply, val_main_cst_18_apply, Ideal.ofBits_def,
    Ideal.ofBits_zero_f32, zero_add]
  refine Finset.sum_congr rfl fun k _ => ?_
  have e : idx_main_v56 (idx_main_v57 (idx_main_v59 (ix2 r s))) k = ix2 s k :=
    funext fun a => Fin.ext (by match a with | ⟨0, _⟩ => rfl | ⟨1, _⟩ => rfl)
  rw [val_main_v55_apply, Ideal.mulf_def, e]

/-- The inner product of row r of the left array with row s of the right one: the contraction runs over the
    columns of the left array and the rows of the transposed right array. -/
theorem dot_rows (x0 x1 : (⟨S8192x128, .f32⟩ : BufTy).Contents (Elt Ideal)) (r s : Fin 8192) :
    val_main_v62 (F := Ideal) x0 x1 (ix2 r s) = ∑ k : Fin 128, x0 (ix2 r k) * x1 (ix2 s k) := by
  rw [val_main_v62_apply]
  refine Finset.sum_congr rfl fun k _ => ?_
  have el : lidx_main_v62 (ix2 r s) k = ix2 r k :=
    funext fun a => Fin.ext (by match a with | ⟨0, _⟩ => rfl | ⟨1, _⟩ => rfl)
  have er : idx_main_v61 (ridx_main_v62 (ix2 r s) k) = ix2 s k :=
    funext fun a => Fin.ext (by match a with | ⟨0, _⟩ => rfl | ⟨1, _⟩ => rfl)
  rw [val_main_v61_apply, el, er]

/-- Element by element, the x–y matrix is the Gaussian of the distance formed from the two spread squared norms
    and the matrix of inner products. -/
theorem gauss_at (x0 x1 : (⟨S8192x128, .f32⟩ : BufTy).Contents (Elt Ideal)) (i : S8192x8192.Idx) :
    val_main_v77 (F := Ideal) x0 x1 i
      = Cert.Mmd.gaussOf (val_main_v58 (F := Ideal) x0 i) (val_main_v59 (F := Ideal) x1 i)
          (val_main_v62 (F := Ideal) x0 x1 i) := by
  simp only [val_main_v77_apply, val_main_v76_apply, val_main_v75_apply, val_main_cst_25_apply,
    val_main_v74_apply, val_main_v72_apply, val_main_v71_apply, val_main_cst_23_apply,
    val_main_v73_apply, val_main_v70_apply, val_main_v69_apply, val_main_v68_apply, val_main_cst_21_apply,
    val_main_call4_v1_apply, val_main_call4_v0_apply, val_main_cst_22_apply,
    val_main_call5_v1_apply, val_main_call5_v0_apply, val_main_cst_24_apply,
    val_main_v67_apply, val_main_v66_apply, val_main_cst_20_apply,
    val_main_v65_apply, val_main_v60_apply, val_main_v64_apply, val_main_v63_apply, val_main_cst_19_apply]
  rfl

/-- The x–y matrix at (r, s) is the kernel value of row r of x and row s of y. -/
theorem ker_xy (x0 x1 : (⟨S8192x128, .f32⟩ : BufTy).Contents (Elt Ideal)) (r s : Fin 8192) :
    val_main_v77 (F := Ideal) x0 x1 (ix2 r s) = Cert.Mmd.pairKer (Cert.Mmd.rowOf x0 r) (Cert.Mmd.rowOf x1 s) := by
  rw [gauss_at, sq_left, sq_right, dot_rows]
  rfl

/-! ## The x–x and y–y matrices -/

/-- The x–x matrix is built by the same operations, in the same order, as the x–y matrix with x on both sides. -/
theorem xx_eq (x : (⟨S8192x128, .f32⟩ : BufTy).Contents (Elt Ideal)) :
    val_main_v25 (F := Ideal) x = val_main_v77 (F := Ideal) x x := rfl

/-- So is the y–y matrix, with y on both sides. -/
theorem yy_eq (x : (⟨S8192x128, .f32⟩ : BufTy).Contents (Elt Ideal)) :
    val_main_v51 (F := Ideal) x = val_main_v77 (F := Ideal) x x := rfl

/-! ## The three totals -/

/-- The sum of the x–y matrix over all its indices is the sum of the kernel over all pairs of rows. -/
theorem total_xy (x0 x1 : (⟨S8192x128, .f32⟩ : BufTy).Contents (Elt Ideal)) :
    (∑ j : S8192x8192.Idx, val_main_v77 (F := Ideal) x0 x1 j) = Cert.Mmd.total x0 x1 := by
  rw [sum_idx2]
  unfold Cert.Mmd.total
  exact Finset.sum_congr rfl fun r _ => Finset.sum_congr rfl fun s _ => ker_xy x0 x1 r s

theorem total_xx (x : (⟨S8192x128, .f32⟩ : BufTy).Contents (Elt Ideal)) :
    (∑ j : S8192x8192.Idx, val_main_v25 (F := Ideal) x j) = Cert.Mmd.total x x := by
  rw [xx_eq]; exact total_xy x x

theorem total_yy (x : (⟨S8192x128, .f32⟩ : BufTy).Contents (Elt Ideal)) :
    (∑ j : S8192x8192.Idx, val_main_v51 (F := Ideal) x j) = Cert.Mmd.total x x := by
  rw [yy_eq]; exact total_xy x x

/-! ## The result -/

/-- The reference's result, as a function of its two argument arrays, is the specification's value. -/
theorem val_eq (x0 x1 : (⟨S8192x128, .f32⟩ : BufTy).Contents (Elt Ideal)) :
    Cert.ReferenceIdeal.Read.val_main_v86 (F := Ideal) x0 x1 = fun _ => Cert.Mmd.mmd x0 x1 := by
  funext i
  rw [val_main_v86_apply, val_main_v82_apply, val_main_v85_apply, val_main_cst_32_apply,
    val_main_v84_apply, val_main_cst_31_apply, val_main_v83_apply, val_main_cst_30_apply,
    val_main_v79_apply, val_main_cst_27_apply, val_main_v78_apply, val_main_cst_26_apply,
    val_main_v81_apply, val_main_cst_29_apply, val_main_v80_apply, val_main_cst_28_apply,
    total_xx, total_yy, total_xy]
  rfl

end Cert.ReferenceIdeal.RefValue

end
-- ==== Proof.Pieces.lean ====
/-
  What one grid point leaves in the three running totals, case by case.

  The body reads the i-th band of 512 rows and the j-th band of 512 rows of each array, and adds to each running
  total the double sum of its tile.  At the first point the totals are first cleared, so the value added to is the
  zero block; at the last point the updated totals are also copied to the outputs.
-/
import proofs.«146267_j26096221290993_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The band of 512 rows the first grid coordinate selects. -/
abbrev blkI (i : grid0.Coords) (x : Vec F S8192x128 .f32) : Vec F S512x128 .f32 :=
  View.ld x (Rect.unit (s := S8192x128) (k0_off1 i) S512x128.size (k0_off1_inb i))

/-- The band of 512 rows the second grid coordinate selects. -/
abbrev blkJ (i : grid0.Coords) (x : Vec F S8192x128 .f32) : Vec F S512x128 .f32 :=
  View.ld x (Rect.unit (s := S8192x128) (k0_off2 i) S512x128.size (k0_off2_inb i))

/-! ## A middle point: each total is updated from what the point before left -/

theorem sB0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 x1 : Vec F S8192x128 .f32) (xs0 xs1 xs2 : Vec F S1x1 .f32) :
    sout0_B_0 c i arg2 harg2 arg3 harg3 arg4 harg4 arg5 harg5 arg6 harg6 arg7 harg7 arg8 harg8 arg9 harg9 hc0 hc1 x0 x1 xs0 xs1 xs2 = k0_pay7 xs0 (k0_pay5 (blkI i x0) (blkJ i x0)) (k0_pay6 (blkI i x0) (blkJ i x0)) (Scalar.ofBits .f32 0x3F800000#32) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg2.read_unread, harg3.read_unread, harg7.read_unread, harg8.read_unread, harg9.read_unread, View.ld_unit_zero (S := S1x1) hz]
  rfl

theorem sB1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 x1 : Vec F S8192x128 .f32) (xs0 xs1 xs2 : Vec F S1x1 .f32) :
    sout0_B_1 c i arg2 harg2 arg3 harg3 arg4 harg4 arg5 harg5 arg6 harg6 arg7 harg7 arg8 harg8 arg9 harg9 hc0 hc1 x0 x1 xs0 xs1 xs2 = k0_pay10 xs1 (k0_pay8 (blkI i x1) (blkJ i x1)) (k0_pay9 (blkI i x1) (blkJ i x1)) (Scalar.ofBits .f32 0x00000000#32) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg2.read_unread, harg3.read_unread, harg7.read_unread, harg8.read_unread, harg9.read_unread, View.ld_unit_zero (S := S1x1) hz]
  rfl

theorem sB2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 x1 : Vec F S8192x128 .f32) (xs0 xs1 xs2 : Vec F S1x1 .f32) :
    sout0_B_2 c i arg2 harg2 arg3 harg3 arg4 harg4 arg5 harg5 arg6 harg6 arg7 harg7 arg8 harg8 arg9 harg9 hc0 hc1 x0 x1 xs0 xs1 xs2 = k0_pay1 xs2 (k0_pay12 (blkI i x0) (blkJ i x1)) (k0_pay13 (blkI i x0) (blkJ i x1)) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg2.read_unread, harg3.read_unread, harg7.read_unread, harg8.read_unread, harg9.read_unread, View.ld_unit_zero (S := S1x1) hz]
  rfl

/-! ## The last point: the totals are updated as at a middle point, and copied out -/

theorem sC0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec F S8192x128 .f32) (xs0 xs1 xs2 : Vec F S1x1 .f32) :
    sout0_C_0 c i arg2 harg2 arg3 harg3 arg4 harg4 arg5 harg5 arg6 harg6 arg7 harg7 arg8 harg8 arg9 harg9 hc0 hc1 x0 x1 xs0 xs1 xs2 = k0_pay7 xs0 (k0_pay5 (blkI i x0) (blkJ i x0)) (k0_pay6 (blkI i x0) (blkJ i x0)) (Scalar.ofBits .f32 0x3F800000#32) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz]
  simp only [View.readAt_eq_ld, harg2.read_unread, harg3.read_unread, harg7.read_unread, harg8.read_unread, harg9.read_unread, View.ld_unit_zero (S := S1x1) hz]
  rfl

theorem oC0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec F S8192x128 .f32) (xs0 xs1 xs2 : Vec F S1x1 .f32) :
    out0_C_2 c i arg2 harg2 arg3 harg3 arg4 harg4 arg5 harg5 arg6 harg6 arg7 harg7 arg8 harg8 arg9 harg9 hc0 hc1 x0 x1 xs0 xs1 xs2 = k0_pay7 xs0 (k0_pay5 (blkI i x0) (blkJ i x0)) (k0_pay6 (blkI i x0) (blkJ i x0)) (Scalar.ofBits .f32 0x3F800000#32) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz, View.readCov_unit_zero (S := S1x1) _ hz]
  simp only [View.readAt_eq_ld, harg2.read_unread, harg3.read_unread, harg7.read_unread, harg8.read_unread, harg9.read_unread, View.ld_unit_zero (S := S1x1) hz]
  rfl

theorem sC1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec F S8192x128 .f32) (xs0 xs1 xs2 : Vec F S1x1 .f32) :
    sout0_C_1 c i arg2 harg2 arg3 harg3 arg4 harg4 arg5 harg5 arg6 harg6 arg7 harg7 arg8 harg8 arg9 harg9 hc0 hc1 x0 x1 xs0 xs1 xs2 = k0_pay10 xs1 (k0_pay8 (blkI i x1) (blkJ i x1)) (k0_pay9 (blkI i x1) (blkJ i x1)) (Scalar.ofBits .f32 0x00000000#32) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz]
  simp only [View.readAt_eq_ld, harg2.read_unread, harg3.read_unread, harg7.read_unread, harg8.read_unread, harg9.read_unread, View.ld_unit_zero (S := S1x1) hz]
  rfl

theorem oC1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec F S8192x128 .f32) (xs0 xs1 xs2 : Vec F S1x1 .f32) :
    out0_C_3 c i arg2 harg2 arg3 harg3 arg4 harg4 arg5 harg5 arg6 harg6 arg7 harg7 arg8 harg8 arg9 harg9 hc0 hc1 x0 x1 xs0 xs1 xs2 = k0_pay10 xs1 (k0_pay8 (blkI i x1) (blkJ i x1)) (k0_pay9 (blkI i x1) (blkJ i x1)) (Scalar.ofBits .f32 0x00000000#32) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz, View.readCov_unit_zero (S := S1x1) _ hz]
  simp only [View.readAt_eq_ld, harg2.read_unread, harg3.read_unread, harg7.read_unread, harg8.read_unread, harg9.read_unread, View.ld_unit_zero (S := S1x1) hz]
  rfl

theorem sC2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec F S8192x128 .f32) (xs0 xs1 xs2 : Vec F S1x1 .f32) :
    sout0_C_2 c i arg2 harg2 arg3 harg3 arg4 harg4 arg5 harg5 arg6 harg6 arg7 harg7 arg8 harg8 arg9 harg9 hc0 hc1 x0 x1 xs0 xs1 xs2 = k0_pay1 xs2 (k0_pay12 (blkI i x0) (blkJ i x1)) (k0_pay13 (blkI i x0) (blkJ i x1)) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz]
  simp only [View.readAt_eq_ld, harg2.read_unread, harg3.read_unread, harg7.read_unread, harg8.read_unread, harg9.read_unread, View.ld_unit_zero (S := S1x1) hz]
  rfl

theorem oC2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec F S8192x128 .f32) (xs0 xs1 xs2 : Vec F S1x1 .f32) :
    out0_C_4 c i arg2 harg2 arg3 harg3 arg4 harg4 arg5 harg5 arg6 harg6 arg7 harg7 arg8 harg8 arg9 harg9 hc0 hc1 x0 x1 xs0 xs1 xs2 = k0_pay1 xs2 (k0_pay12 (blkI i x0) (blkJ i x1)) (k0_pay13 (blkI i x0) (blkJ i x1)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz, View.readCov_unit_zero (S := S1x1) _ hz]
  simp only [View.readAt_eq_ld, harg2.read_unread, harg3.read_unread, harg7.read_unread, harg8.read_unread, harg9.read_unread, View.ld_unit_zero (S := S1x1) hz]
  rfl

/-! ## The first point: the totals are cleared, then updated -/

theorem sA0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 x1 : Vec F S8192x128 .f32) :
    sout0_A_0 c i arg2 harg2 arg3 harg3 arg4 harg4 arg5 harg5 arg6 harg6 arg7 harg7 arg8 harg8 arg9 harg9 hc0 hc1 x0 x1 = k0_pay7 k0_pay2 (k0_pay5 (blkI i x0) (blkJ i x0)) (k0_pay6 (blkI i x0) (blkJ i x0)) (Scalar.ofBits .f32 0x3F800000#32) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, harg7.read_unread, harg8.read_unread, harg9.read_unread, View.ld_unit_zero (S := S1x1) hz]
  rfl

theorem sA1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 x1 : Vec F S8192x128 .f32) :
    sout0_A_1 c i arg2 harg2 arg3 harg3 arg4 harg4 arg5 harg5 arg6 harg6 arg7 harg7 arg8 harg8 arg9 harg9 hc0 hc1 x0 x1 = k0_pay10 k0_pay3 (k0_pay8 (blkI i x1) (blkJ i x1)) (k0_pay9 (blkI i x1) (blkJ i x1)) (Scalar.ofBits .f32 0x00000000#32) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, harg7.read_unread, harg8.read_unread, harg9.read_unread, View.ld_unit_zero (S := S1x1) hz]
  rfl

theorem sA2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 x1 : Vec F S8192x128 .f32) :
    sout0_A_2 c i arg2 harg2 arg3 harg3 arg4 harg4 arg5 harg5 arg6 harg6 arg7 harg7 arg8 harg8 arg9 harg9 hc0 hc1 x0 x1 = k0_pay1 k0_pay4 (k0_pay12 (blkI i x0) (blkJ i x1)) (k0_pay13 (blkI i x0) (blkJ i x1)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, harg7.read_unread, harg8.read_unread, harg9.read_unread, View.ld_unit_zero (S := S1x1) hz]
  rfl

end Cert.KernelIdeal.Pieces

end
-- ==== Proof.Column.lean ====
/-
  Keepdims column forms read at an index: a vector of length a seen as a column [a, 1], and a column broadcast
  along its unit axis to [a, b].  Each reads the operand at the row coordinate.
-/
import Idealize.ShloMosaic.Lib.ValueLayout

namespace Cert.Mmd.Column

open Idealize.ShloMosaic Idealize.ShloMosaic.ValueIdx

variable {α : Type}

/-- An [a] array cast to the column [a, 1] reads, at (p, z), the operand at p. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column [a, 1] broadcast to [a, b] reads, at (p, q), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) (z : Fin 1) :
    broadcastTo ⟨2, ![a, b]⟩ v h (ix2 p q) = v (ix2 p z) := by
  refine broadcastTo_apply v h (ix2 p q) (ix2 p z) fun ax => ?_
  match ax with
  | ⟨0, _⟩ =>
    show p.val = if a = 1 then 0 else p.val
    split
    · have := p.isLt; omega
    · rfl
  | ⟨1, _⟩ =>
    show z.val = if (1 : ℕ) = 1 then 0 else q.val
    rw [if_pos rfl]; omega

end Cert.Mmd.Column
-- ==== Proof.TileAt.lean ====
/-
  One grid point's contribution, read at the extended reals.

  At a grid point the body holds two blocks u, v of 512 rows and 128 columns.  Entry (p, q) of the squared-distance
  tile is max((|u_p|² + |v_q|²) - 2·⟨u_p, v_q⟩, 0); the Gaussian of its guarded square root is summed first along
  the lanes and then along the rows, and the double sum is added to the running total the point found.  So the
  stored value is  acc + ∑ₚ ∑_q pairKer u_p v_q.
-/
import proofs.«146267_j26096221290993_1_alg».proof.Proof.Gen.KernelIdeal.Skeleton
import proofs.«146267_j26096221290993_1_alg».proof.Proof.Spec
import proofs.«146267_j26096221290993_1_alg».proof.Proof.Column
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx Cert.Mmd Cert.Mmd.Column

/-- The dimension numbers of the tile's inner products: rows of the left block against rows of the right one. -/
abbrev D := dot_S512x128_S128x512_S512x512_1_0_0_1_n_n

/-! ## Inserting the reduced coordinate -/

theorem lift_lane128 (p : Fin 512) (k : Fin 128) : reduces_S512x128_S512.lift (ix1 p) k = ix2 p k :=
  funext fun a => match a with | ⟨0, _⟩ => Fin.ext rfl | ⟨1, _⟩ => Fin.ext rfl

theorem lift_lane512 (p : Fin 512) (q : Fin 512) : reduces_S512x512_S512.lift (ix1 p) q = ix2 p q :=
  funext fun a => match a with | ⟨0, _⟩ => Fin.ext rfl | ⟨1, _⟩ => Fin.ext rfl

theorem lift_row512 (z : Fin 1) (p : Fin 512) : reduces_S512x1_S1.lift (ix1 z) p = ix2 p z :=
  funext fun a => match a with | ⟨0, _⟩ => Fin.ext rfl | ⟨1, _⟩ => Fin.ext rfl

/-! ## The squared norms, as a column -/

/-- Row p of the column of squared norms is ∑ₖ u[p,k]². -/
theorem sqcol_apply (u : FVec Ideal S512x128 .f32) (p : Fin 512) (z : Fin 1) :
    shapeCast S512x1 (multiReduction .add [1] S512 (mulf u u) 0x00000000#32 reduces_S512x128_S512 (.inl rfl) rfl)
        shapeCasts_S512_S512x1 (ix2 p z)
      = ∑ k : Fin 128, u (ix2 p k) * u (ix2 p k) :=
  (shapeCast_a_a1_apply _ shapeCasts_S512_S512x1 p z).trans
    ((Ideal.multiReduction_add_single (mulf u u) 0x00000000#32 reduces_S512x128_S512 (.inl rfl) rfl (ix1 p)).trans
      (Finset.sum_congr rfl fun k _ => congrArg (fun i => u i * u i) (lift_lane128 p k)))

/-! ## The inner products -/

theorem lhs_D_0 (i : S512x512.Idx) (q : D.contr.Idx) : (D.lhsIdx i q 0).val = (i 0).val := by
  unfold DotDims.lhsIdx
  rw [dif_neg (show ¬(0 : Fin S512x128.rank) ∈ D.lhsBatch by decide), dif_pos (show (0 : Fin S512x128.rank) ∈ D.lhsNonContracting by decide)]
  rfl
theorem lhs_D_1 (i : S512x512.Idx) (q : D.contr.Idx) : (D.lhsIdx i q 1).val = (q ⟨0, by decide⟩).val :=
  D.lhsIdx_val_of_single rfl i q
theorem rhs_D_0 (i : S512x512.Idx) (q : D.contr.Idx) : (D.rhsIdx i q 0).val = (q ⟨0, by decide⟩).val :=
  D.rhsIdx_val_of_single rfl i q
theorem rhs_D_1 (i : S512x512.Idx) (q : D.contr.Idx) : (D.rhsIdx i q 1).val = (i 1).val := by
  unfold DotDims.rhsIdx
  rw [dif_neg (show ¬(1 : Fin S128x512.rank) ∈ D.rhsBatch by decide), dif_pos (show (1 : Fin S128x512.rank) ∈ D.rhsNonContracting by decide)]
  rfl

/-- Entry (p, q) of the product of the left block with the transposed right block is ⟨u_p, v_q⟩. -/
theorem dot_apply (u v : FVec Ideal S512x128 .f32) (p q : Fin 512) :
    matmul D none (truncf .bf16 u bitsLt_bf16_f32)
        (transpose S128x512 [1, 0] (truncf .bf16 v bitsLt_bf16_f32) transposes_S512x128_p1_0_S128x512)
        (constant S512x512 .f32 0x00000000#32) (ix2 p q)
      = ∑ k : Fin 128, u (ix2 p k) * v (ix2 q k) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_D_0 _ _
    | ⟨1, _⟩ => exact (lhs_D_1 _ _).trans hk)
  have er : D.rhsIdx (ix2 p q) ((contrEquiv1 D 128 rfl rfl).symm k) = ix2 k q := funext fun a => Fin.ext (by
    match a with
    | ⟨0, _⟩ => exact (rhs_D_0 _ _).trans hk
    | ⟨1, _⟩ => exact rhs_D_1 _ _)
  rw [el, er]
  exact congrArg (u (ix2 p k) * ·) (transpose_ix2_apply _ transposes_S512x128_p1_0_S128x512 k q)

/-! ## The squared distances -/

/-- Entry (p, q) of the clamped squared-distance tile. -/
theorem d2_apply (u v : FVec Ideal S512x128 .f32) (p q : Fin 512) :
    k0_pay5 (F := Ideal) u v (ix2 p q)
      = max (((∑ k : Fin 128, u (ix2 p k) * u (ix2 p k)) + (∑ k : Fin 128, v (ix2 q k) * v (ix2 q k)))
          - Ideal.ofBits .f32 0x40000000#32 * ∑ k : Fin 128, u (ix2 p k) * v (ix2 q k))
        (Ideal.ofBits .f32 0x00000000#32) := by
  unfold k0_pay5
  refine congrArg₂ max (congrArg₂ (· - ·) (congrArg₂ (· + ·) ?_ ?_) (congrArg (Ideal.ofBits .f32 0x40000000#32 * ·) ?_)) rfl
  · exact (broadcastTo_a1_ab_apply _ broadcasts_S512x1_S512x512 p q 0).trans (sqcol_apply u p 0)
  · exact (broadcastTo_1b_ab_apply _ broadcasts_S1x512_S512x512 p q).trans
      ((transpose_ix2_apply _ transposes_S512x1_p1_0_S1x512 0 q).trans (sqcol_apply v q 0))
  · exact dot_apply u v p q

/-! ## The Gaussian of a tile and its double sum -/

/-- The Gaussian of the guarded square root of one clamped squared distance. -/
def gaussElt (w : EReal) : EReal :=
  Ideal.exp (Ideal.ofBits .f32 0xBF000000#32 *
    Scalar.select (Ideal.cmp .ogt w (Ideal.ofBits .f32 0x00000000#32))
      (Ideal.sqrt (Scalar.select (Ideal.cmp .ogt w (Ideal.ofBits .f32 0x00000000#32)) w (Ideal.ofBits .f32 0x3F800000#32)))
      (Ideal.ofBits .f32 0x00000000#32))

/-- The kernel value of rows p of u and q of v is the Gaussian of entry (p, q) of the squared-distance tile. -/
theorem gaussElt_d2 (u v : FVec Ideal S512x128 .f32) (p q : Fin 512) :
    gaussElt (k0_pay5 (F := Ideal) u v (ix2 p q)) = pairKer (rowOf u p) (rowOf v q) := by
  rw [d2_apply]; rfl

/-- A 512 × 512 tile summed along its lanes, then along its rows, is the double sum of its entries. -/
theorem tileSum_apply (e : FVec Ideal S512x512 .f32) (z z' : Fin 1) (G : Fin 512 → Fin 512 → EReal)
    (he : ∀ p q, e (ix2 p q) = G p q) :
    shapeCast S1x1 (multiReduction .add [0] S1
        (shapeCast S512x1 (multiReduction .add [1] S512 e 0x00000000#32 reduces_S512x512_S512 (.inl rfl) rfl)
          shapeCasts_S512_S512x1)
        0x00000000#32 reduces_S512x1_S1 (.inl rfl) rfl) shapeCasts_S1_S1x1 (ix2 z z')
      = ∑ p : Fin 512, ∑ q : Fin 512, G p q := by
  refine (shapeCast_a_1a_apply _ shapeCasts_S1_S1x1 z z').trans ?_
  refine (Ideal.multiReduction_add_single _ 0x00000000#32 reduces_S512x1_S1 (.inl rfl) rfl (ix1 z')).trans ?_
  refine Finset.sum_congr rfl fun p _ => ?_
  refine (congrArg _ (lift_row512 z' p)).trans ?_
  refine (shapeCast_a_a1_apply _ shapeCasts_S512_S512x1 p z').trans ?_
  refine (Ideal.multiReduction_add_single e 0x00000000#32 reduces_S512x512_S512 (.inl rfl) rfl (ix1 p)).trans ?_
  refine Finset.sum_congr rfl fun q _ => ?_
  exact (congrArg e (lift_lane512 p q)).trans (he p q)

/-! ## The three stored values -/

/-- What the first running total becomes: what it was plus the tile's double sum. -/
theorem pay7_apply (acc : FVec Ideal S1x1 .f32) (u v : FVec Ideal S512x128 .f32) (j : S1x1.Idx) :
    k0_pay7 (F := Ideal) acc (k0_pay5 (F := Ideal) u v) (k0_pay6 (F := Ideal) u v) (Scalar.ofBits .f32 0x3F800000#32) j
      = acc j + ∑ p : Fin 512, ∑ q : Fin 512, pairKer (rowOf u p) (rowOf v q) := by
  obtain ⟨z, z', rfl⟩ : ∃ (z z' : Fin 1), j = ix2 z z' := ⟨j 0, j 1, eq_ix2 j⟩
  unfold k0_pay7
  refine (congrFun (shapeCast_self _ shapeCasts_S1x1_S1x1) (ix2 z z')).trans ?_
  refine congrArg (acc (ix2 z z') + ·) ?_
  refine tileSum_apply _ z z' _ fun p q => ?_
  exact Eq.trans (rfl : _ = gaussElt (k0_pay5 (F := Ideal) u v (ix2 p q))) (gaussElt_d2 u v p q)

/-- The second running total likewise. -/
theorem pay10_apply (acc : FVec Ideal S1x1 .f32) (u v : FVec Ideal S512x128 .f32) (j : S1x1.Idx) :
    k0_pay10 (F := Ideal) acc (k0_pay8 (F := Ideal) u v) (k0_pay9 (F := Ideal) u v) (Scalar.ofBits .f32 0x00000000#32) j
      = acc j + ∑ p : Fin 512, ∑ q : Fin 512, pairKer (rowOf u p) (rowOf v q) := by
  obtain ⟨z, z', rfl⟩ : ∃ (z z' : Fin 1), j = ix2 z z' := ⟨j 0, j 1, eq_ix2 j⟩
  unfold k0_pay10
  refine (congrFun (shapeCast_self _ shapeCasts_S1x1_S1x1) (ix2 z z')).trans ?_
  refine congrArg (acc (ix2 z z') + ·) ?_
  refine tileSum_apply _ z z' _ fun p q => ?_
  exact Eq.trans (rfl : _ = gaussElt (k0_pay5 (F := Ideal) u v (ix2 p q))) (gaussElt_d2 u v p q)

/-- The third running total likewise. -/
theorem pay1_apply (acc : FVec Ideal S1x1 .f32) (u v : FVec Ideal S512x128 .f32) (j : S1x1.Idx) :
    k0_pay1 (F := Ideal) acc (k0_pay12 (F := Ideal) u v) (k0_pay13 (F := Ideal) u v) j
      = acc j + ∑ p : Fin 512, ∑ q : Fin 512, pairKer (rowOf u p) (rowOf v q) := by
  obtain ⟨z, z', rfl⟩ : ∃ (z z' : Fin 1), j = ix2 z z' := ⟨j 0, j 1, eq_ix2 j⟩
  unfold k0_pay1
  refine (congrFun (shapeCast_self _ shapeCasts_S1x1_S1x1) (ix2 z z')).trans ?_
  refine congrArg (acc (ix2 z z') + ·) ?_
  refine tileSum_apply _ z z' _ fun p q => ?_
  exact Eq.trans (rfl : _ = gaussElt (k0_pay5 (F := Ideal) u v (ix2 p q))) (gaussElt_d2 u v p q)

end Cert.KernelIdeal.TileValue

end
-- ==== Proof.KernelRun.lean ====
/-
  What the three running totals hold after every grid point.

  The walk over the 256 grid points is row-major.  Point 0 clears the three totals and adds its tile; every later
  point adds its tile to what the point before left; the last point also copies the totals to the outputs.  So after
  point n each total is the zero word plus the sum of the tile sums of points 0 … n, for its pair of arrays
  (x with x, y with y, x with y).
-/
import proofs.«146267_j26096221290993_1_alg».proof.Proof.Gen.KernelIdeal.Frame
import proofs.«146267_j26096221290993_1_alg».proof.Proof.Spec
import proofs.«146267_j26096221290993_1_alg».proof.Proof.Pieces
import proofs.«146267_j26096221290993_1_alg».proof.Proof.TileAt

set_option maxRecDepth 16384

noncomputable section

open Idealize.ShloMosaic Idealize.ShloMosaic.TcCoe Idealize.SL.Sem

namespace Cert.KernelIdeal.RunValue

open Cert.KernelIdeal Cert.KernelIdeal.Gen Cert.Mmd Idealize.ShloMosaic.ValueIdx
open Cert.KernelIdeal.Pieces Cert.KernelIdeal.TileValue

variable (m : (ℓ : Loc nD τ sig) → Buf (Elt Ideal) ℓ)

/-- The first argument array on core c. -/
abbrev xs (c : Dev nD) : FVec Ideal S8192x128 .f32 := m ((c.tc : Thread nD τ).loc main_arg0)
/-- The second argument array on core c. -/
abbrev ys (c : Dev nD) : FVec Ideal S8192x128 .f32 := m ((c.tc : Thread nD τ).loc main_arg1)

/-- The running total of a pair of arrays after point n: the zero word plus the tile sums of points 0 … n. -/
def accOf (a b : FVec Ideal S8192x128 .f32) (n : ℕ) : Vec Ideal S1x1 .f32 :=
  fun _ => Ideal.ofBits .f32 0x00000000#32 + ∑ s ∈ Finset.range (n + 1), tileAt a b s

theorem lastPoint : (255 : ℕ) < cfg0.N := by rw [show cfg0.N = 256 from N_0]; decide

/-! ## Where a grid point sits -/

/-- The first coordinate of the n-th point of the row-major walk. -/
theorem coords0 (t : Fin cfg0.N) : (grid0.coords t 0).val = t.val / 16 % 16 := by
  show t.val / grid0.stride 0 % grid0.bound 0 = _
  rw [show grid0.stride 0 = 16 from by decide]
  rfl

/-- Its second coordinate. -/
theorem coords1 (t : Fin cfg0.N) : (grid0.coords t 1).val = t.val % 16 := by
  show t.val / grid0.stride 1 % grid0.bound 1 = _
  rw [show grid0.stride 1 = 1 from by decide, Nat.div_one]
  rfl

/-! ## A band of rows of an array -/

/-- Row p of the band of 512 rows starting at row off 0 is row off 0 + p of the array. -/
theorem band_row (x : FVec Ideal S8192x128 .f32) (off : Fin 2 → ℕ) (inb : ∀ a, off a + S512x128.size a ≤ S8192x128.size a)
    (r : Fin 8192) (p : Fin 512) (h0 : off 0 + p.val = r.val) (h1 : off 1 = 0) :
    rowOf (View.ld (Val := Elt Ideal) (e' := EltTy.f32) x (Rect.unit (s := S8192x128) off S512x128.size inb)) p = rowOf x r := by
  funext k
  show x _ = x _
  congr 1
  funext a
  apply Fin.ext
  match a with
  | ⟨0, _⟩ => show off 0 + 1 * p.val = r.val; omega
  | ⟨1, _⟩ => show off 1 + 1 * k.val = k.val; omega

/-- The double sum over the two bands a point selects is the tile sum of that point. -/
theorem bands_tile (a b : FVec Ideal S8192x128 .f32) (i : grid0.Coords) (n : ℕ)
    (hi0 : (i 0).val = n / 16 % 16) (hi1 : (i 1).val = n % 16) :
    (∑ p : Fin 512, ∑ q : Fin 512, pairKer (rowOf (blkI (F := Ideal) i a) p) (rowOf (blkJ (F := Ideal) i b) q)) = tileAt a b n := by
  unfold tileAt tile
  refine Finset.sum_congr rfl fun p _ => Finset.sum_congr rfl fun q _ => ?_
  have e1 := k0_off1_eq i
  have e2 := k0_off2_eq i
  rw [band_row a (k0_off1 i) (k0_off1_inb i) (rowIn ⟨n / 16 % 16, Nat.mod_lt _ (by decide)⟩ p) p
      (by rw [e1]; show 512 * (i 0).val + p.val = 512 * (n / 16 % 16) + p.val; rw [hi0]) (by rw [e1]; rfl),
    band_row b (k0_off2 i) (k0_off2_inb i) (rowIn ⟨n % 16, Nat.mod_lt _ (by decide)⟩ q) q
      (by rw [e2]; show 512 * (i 1).val + q.val = 512 * (n % 16) + q.val; rw [hi1]) (by rw [e2]; rfl)]

/-! ## One more point added to a running total -/

theorem acc_first (a b : FVec Ideal S8192x128 .f32) (z : Vec Ideal S1x1 .f32)
    (hz : ∀ j, z j = Ideal.ofBits .f32 0x00000000#32) :
    (fun j => z j + tileAt a b 0) = accOf a b 0 := by
  funext j
  unfold accOf
  rw [hz j, Finset.sum_range_one]

theorem acc_next (a b : FVec Ideal S8192x128 .f32) (n : ℕ) :
    (fun j => accOf a b n j + tileAt a b (n + 1)) = accOf a b (n + 1) := by
  funext j
  unfold accOf
  rw [Finset.sum_range_succ _ (n + 1), add_assoc]

theorem zero2 (j : S1x1.Idx) : k0_pay2 (F := Ideal) j = Ideal.ofBits .f32 0x00000000#32 := rfl
theorem zero3 (j : S1x1.Idx) : k0_pay3 (F := Ideal) j = Ideal.ofBits .f32 0x00000000#32 := rfl
theorem zero4 (j : S1x1.Idx) : k0_pay4 (F := Ideal) j = Ideal.ofBits .f32 0x00000000#32 := rfl

/-- The first total's new value at a point of the walk. -/
theorem upd0 (a b : FVec Ideal S8192x128 .f32) (i : grid0.Coords) (n : ℕ)
    (hi0 : (i 0).val = n / 16 % 16) (hi1 : (i 1).val = n % 16) (acc : FVec Ideal S1x1 .f32) :
    k0_pay7 (F := Ideal) acc (k0_pay5 (blkI (F := Ideal) i a) (blkJ (F := Ideal) i b)) (k0_pay6 (blkI (F := Ideal) i a) (blkJ (F := Ideal) i b)) (Scalar.ofBits .f32 0x3F800000#32)
      = fun j => acc j + tileAt a b n :=
  funext fun j => (pay7_apply acc (blkI (F := Ideal) i a) (blkJ (F := Ideal) i b) j).trans (congrArg (acc j + ·) (bands_tile a b i n hi0 hi1))

/-- The second total's. -/
theorem upd1 (a b : FVec Ideal S8192x128 .f32) (i : grid0.Coords) (n : ℕ)
    (hi0 : (i 0).val = n / 16 % 16) (hi1 : (i 1).val = n % 16) (acc : FVec Ideal S1x1 .f32) :
    k0_pay10 (F := Ideal) acc (k0_pay8 (blkI (F := Ideal) i a) (blkJ (F := Ideal) i b)) (k0_pay9 (blkI (F := Ideal) i a) (blkJ (F := Ideal) i b)) (Scalar.ofBits .f32 0x00000000#32)
      = fun j => acc j + tileAt a b n :=
  funext fun j => (pay10_apply acc (blkI (F := Ideal) i a) (blkJ (F := Ideal) i b) j).trans (congrArg (acc j + ·) (bands_tile a b i n hi0 hi1))

/-- The third total's. -/
theorem upd2 (a b : FVec Ideal S8192x128 .f32) (i : grid0.Coords) (n : ℕ)
    (hi0 : (i 0).val = n / 16 % 16) (hi1 : (i 1).val = n % 16) (acc : FVec Ideal S1x1 .f32) :
    k0_pay1 (F := Ideal) acc (k0_pay12 (blkI (F := Ideal) i a) (blkJ (F := Ideal) i b)) (k0_pay13 (blkI (F := Ideal) i a) (blkJ (F := Ideal) i b))
      = fun j => acc j + tileAt a b n :=
  funext fun j => (pay1_apply acc (blkI (F := Ideal) i a) (blkJ (F := Ideal) i b) j).trans (congrArg (acc j + ·) (bands_tile a b i n hi0 hi1))

/-! ## The windows' blocks are the whole arrays -/

theorem iblk0_eq (c : Dev nD) (t : Fin cfg0.N) : (iblk m c 0 t : Vec Ideal S8192x128 .f32) = xs m c := by
  funext j
  unfold iblk
  rw [View.read_apply]
  show V m c main_arg0 _ = m (c.tc.loc main_arg0) _
  unfold V
  congr 1
  funext a
  apply Fin.ext
  match a with
  | ⟨0, _⟩ => show win0_0.index t 0 * 8192 + 1 * (j 0).val = (j 0).val; rw [show win0_0.index t 0 = 0 from rfl]; omega
  | ⟨1, _⟩ => show win0_0.index t 1 * 128 + 1 * (j 1).val = (j 1).val; rw [show win0_0.index t 1 = 0 from rfl]; omega

theorem iblk1_eq (c : Dev nD) (t : Fin cfg0.N) : (iblk m c 1 t : Vec Ideal S8192x128 .f32) = ys m c := by
  funext j
  unfold iblk
  rw [View.read_apply]
  show V m c main_arg1 _ = m (c.tc.loc main_arg1) _
  unfold V
  congr 1
  funext a
  apply Fin.ext
  match a with
  | ⟨0, _⟩ => show win0_1.index t 0 * 8192 + 1 * (j 0).val = (j 0).val; rw [show win0_1.index t 0 = 0 from rfl]; omega
  | ⟨1, _⟩ => show win0_1.index t 1 * 128 + 1 * (j 1).val = (j 1).val; rw [show win0_1.index t 1 = 0 from rfl]; omega

/-! ## One point of the walk, total by total -/

theorem stepA0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 x1 : Vec Ideal S8192x128 .f32) (a b : FVec Ideal S8192x128 .f32) (hx0 : x0 = a) (hx1 : x1 = b)
    (hi0 : (i 0).val = 0 / 16 % 16) (hi1 : (i 1).val = 0 % 16) :
    sout0_A_0 c i arg2 harg2 arg3 harg3 arg4 harg4 arg5 harg5 arg6 harg6 arg7 harg7 arg8 harg8 arg9 harg9 hc0 hc1 x0 x1 = accOf a a 0 := by
  rw [← hx0]
  exact (sA0 c i arg2 harg2 arg3 harg3 arg4 harg4 arg5 harg5 arg6 harg6 arg7 harg7 arg8 harg8 arg9 harg9 hc0 hc1 x0 x1).trans
    ((upd0 x0 x0 i 0 hi0 hi1 (k0_pay2 (F := Ideal))).trans (acc_first x0 x0 (k0_pay2 (F := Ideal)) zero2))

theorem stepA1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 x1 : Vec Ideal S8192x128 .f32) (a b : FVec Ideal S8192x128 .f32) (hx0 : x0 = a) (hx1 : x1 = b)
    (hi0 : (i 0).val = 0 / 16 % 16) (hi1 : (i 1).val = 0 % 16) :
    sout0_A_1 c i arg2 harg2 arg3 harg3 arg4 harg4 arg5 harg5 arg6 harg6 arg7 harg7 arg8 harg8 arg9 harg9 hc0 hc1 x0 x1 = accOf b b 0 := by
  rw [← hx1]
  exact (sA1 c i arg2 harg2 arg3 harg3 arg4 harg4 arg5 harg5 arg6 harg6 arg7 harg7 arg8 harg8 arg9 harg9 hc0 hc1 x0 x1).trans
    ((upd1 x1 x1 i 0 hi0 hi1 (k0_pay3 (F := Ideal))).trans (acc_first x1 x1 (k0_pay3 (F := Ideal)) zero3))

theorem stepA2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 x1 : Vec Ideal S8192x128 .f32) (a b : FVec Ideal S8192x128 .f32) (hx0 : x0 = a) (hx1 : x1 = b)
    (hi0 : (i 0).val = 0 / 16 % 16) (hi1 : (i 1).val = 0 % 16) :
    sout0_A_2 c i arg2 harg2 arg3 harg3 arg4 harg4 arg5 harg5 arg6 harg6 arg7 harg7 arg8 harg8 arg9 harg9 hc0 hc1 x0 x1 = accOf a b 0 := by
  rw [← hx0, ← hx1]
  exact (sA2 c i arg2 harg2 arg3 harg3 arg4 harg4 arg5 harg5 arg6 harg6 arg7 harg7 arg8 harg8 arg9 harg9 hc0 hc1 x0 x1).trans
    ((upd2 x0 x1 i 0 hi0 hi1 (k0_pay4 (F := Ideal))).trans (acc_first x0 x1 (k0_pay4 (F := Ideal)) zero4))

theorem stepB0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs0 = accOf a a n)
    (hi0 : (i 0).val = (n + 1) / 16 % 16) (hi1 : (i 1).val = (n + 1) % 16) :
    sout0_B_0 c i arg2 harg2 arg3 harg3 arg4 harg4 arg5 harg5 arg6 harg6 arg7 harg7 arg8 harg8 arg9 harg9 hc0 hc1 x0 x1 xs0 xs1 xs2 = accOf a a (n + 1) := by
  rw [← hx0] at hp ⊢
  have e3 := acc_next x0 x0 n
  rw [← hp] at e3
  exact (sB0 c i arg2 harg2 arg3 harg3 arg4 harg4 arg5 harg5 arg6 harg6 arg7 harg7 arg8 harg8 arg9 harg9 hc0 hc1 x0 x1 xs0 xs1 xs2).trans
    ((upd0 x0 x0 i (n + 1) hi0 hi1 xs0).trans e3)

theorem stepB1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs1 = accOf b b n)
    (hi0 : (i 0).val = (n + 1) / 16 % 16) (hi1 : (i 1).val = (n + 1) % 16) :
    sout0_B_1 c i arg2 harg2 arg3 harg3 arg4 harg4 arg5 harg5 arg6 harg6 arg7 harg7 arg8 harg8 arg9 harg9 hc0 hc1 x0 x1 xs0 xs1 xs2 = accOf b b (n + 1) := by
  rw [← hx1] at hp ⊢
  have e3 := acc_next x1 x1 n
  rw [← hp] at e3
  exact (sB1 c i arg2 harg2 arg3 harg3 arg4 harg4 arg5 harg5 arg6 harg6 arg7 harg7 arg8 harg8 arg9 harg9 hc0 hc1 x0 x1 xs0 xs1 xs2).trans
    ((upd1 x1 x1 i (n + 1) hi0 hi1 xs1).trans e3)

theorem stepB2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs2 = accOf a b n)
    (hi0 : (i 0).val = (n + 1) / 16 % 16) (hi1 : (i 1).val = (n + 1) % 16) :
    sout0_B_2 c i arg2 harg2 arg3 harg3 arg4 harg4 arg5 harg5 arg6 harg6 arg7 harg7 arg8 harg8 arg9 harg9 hc0 hc1 x0 x1 xs0 xs1 xs2 = accOf a b (n + 1) := by
  rw [← hx0, ← hx1] at hp ⊢
  have e3 := acc_next x0 x1 n
  rw [← hp] at e3
  exact (sB2 c i arg2 harg2 arg3 harg3 arg4 harg4 arg5 harg5 arg6 harg6 arg7 harg7 arg8 harg8 arg9 harg9 hc0 hc1 x0 x1 xs0 xs1 xs2).trans
    ((upd2 x0 x1 i (n + 1) hi0 hi1 xs2).trans e3)

theorem stepC0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs0 = accOf a a n)
    (hi0 : (i 0).val = (n + 1) / 16 % 16) (hi1 : (i 1).val = (n + 1) % 16) :
    sout0_C_0 c i arg2 harg2 arg3 harg3 arg4 harg4 arg5 harg5 arg6 harg6 arg7 harg7 arg8 harg8 arg9 harg9 hc0 hc1 x0 x1 xs0 xs1 xs2 = accOf a a (n + 1) := by
  rw [← hx0] at hp ⊢
  have e3 := acc_next x0 x0 n
  rw [← hp] at e3
  exact (sC0 c i arg2 harg2 arg3 harg3 arg4 harg4 arg5 harg5 arg6 harg6 arg7 harg7 arg8 harg8 arg9 harg9 hc0 hc1 x0 x1 xs0 xs1 xs2).trans
    ((upd0 x0 x0 i (n + 1) hi0 hi1 xs0).trans e3)

theorem stepC1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs1 = accOf b b n)
    (hi0 : (i 0).val = (n + 1) / 16 % 16) (hi1 : (i 1).val = (n + 1) % 16) :
    sout0_C_1 c i arg2 harg2 arg3 harg3 arg4 harg4 arg5 harg5 arg6 harg6 arg7 harg7 arg8 harg8 arg9 harg9 hc0 hc1 x0 x1 xs0 xs1 xs2 = accOf b b (n + 1) := by
  rw [← hx1] at hp ⊢
  have e3 := acc_next x1 x1 n
  rw [← hp] at e3
  exact (sC1 c i arg2 harg2 arg3 harg3 arg4 harg4 arg5 harg5 arg6 harg6 arg7 harg7 arg8 harg8 arg9 harg9 hc0 hc1 x0 x1 xs0 xs1 xs2).trans
    ((upd1 x1 x1 i (n + 1) hi0 hi1 xs1).trans e3)

theorem stepC2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs2 = accOf a b n)
    (hi0 : (i 0).val = (n + 1) / 16 % 16) (hi1 : (i 1).val = (n + 1) % 16) :
    sout0_C_2 c i arg2 harg2 arg3 harg3 arg4 harg4 arg5 harg5 arg6 harg6 arg7 harg7 arg8 harg8 arg9 harg9 hc0 hc1 x0 x1 xs0 xs1 xs2 = accOf a b (n + 1) := by
  rw [← hx0, ← hx1] at hp ⊢
  have e3 := acc_next x0 x1 n
  rw [← hp] at e3
  exact (sC2 c i arg2 harg2 arg3 harg3 arg4 harg4 arg5 harg5 arg6 harg6 arg7 harg7 arg8 harg8 arg9 harg9 hc0 hc1 x0 x1 xs0 xs1 xs2).trans
    ((upd2 x0 x1 i (n + 1) hi0 hi1 xs2).trans e3)

theorem outC0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs0 = accOf a a n)
    (hi0 : (i 0).val = (n + 1) / 16 % 16) (hi1 : (i 1).val = (n + 1) % 16) :
    out0_C_2 c i arg2 harg2 arg3 harg3 arg4 harg4 arg5 harg5 arg6 harg6 arg7 harg7 arg8 harg8 arg9 harg9 hc0 hc1 x0 x1 xs0 xs1 xs2 = accOf a a (n + 1) := by
  rw [← hx0] at hp ⊢
  have e3 := acc_next x0 x0 n
  rw [← hp] at e3
  exact (oC0 c i arg2 harg2 arg3 harg3 arg4 harg4 arg5 harg5 arg6 harg6 arg7 harg7 arg8 harg8 arg9 harg9 hc0 hc1 x0 x1 xs0 xs1 xs2).trans
    ((upd0 x0 x0 i (n + 1) hi0 hi1 xs0).trans e3)

theorem outC1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs1 = accOf b b n)
    (hi0 : (i 0).val = (n + 1) / 16 % 16) (hi1 : (i 1).val = (n + 1) % 16) :
    out0_C_3 c i arg2 harg2 arg3 harg3 arg4 harg4 arg5 harg5 arg6 harg6 arg7 harg7 arg8 harg8 arg9 harg9 hc0 hc1 x0 x1 xs0 xs1 xs2 = accOf b b (n + 1) := by
  rw [← hx1] at hp ⊢
  have e3 := acc_next x1 x1 n
  rw [← hp] at e3
  exact (oC1 c i arg2 harg2 arg3 harg3 arg4 harg4 arg5 harg5 arg6 harg6 arg7 harg7 arg8 harg8 arg9 harg9 hc0 hc1 x0 x1 xs0 xs1 xs2).trans
    ((upd1 x1 x1 i (n + 1) hi0 hi1 xs1).trans e3)

theorem outC2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 x1 : Vec Ideal S8192x128 .f32) (xs0 xs1 xs2 : Vec Ideal S1x1 .f32)
    (a b : FVec Ideal S8192x128 .f32) (hx0 : x0 = a) (hx1 : x1 = b) (n : ℕ) (hp : xs2 = accOf a b n)
    (hi0 : (i 0).val = (n + 1) / 16 % 16) (hi1 : (i 1).val = (n + 1) % 16) :
    out0_C_4 c i arg2 harg2 arg3 harg3 arg4 harg4 arg5 harg5 arg6 harg6 arg7 harg7 arg8 harg8 arg9 harg9 hc0 hc1 x0 x1 xs0 xs1 xs2 = accOf a b (n + 1) := by
  rw [← hx0, ← hx1] at hp ⊢
  have e3 := acc_next x0 x1 n
  rw [← hp] at e3
  exact (oC2 c i arg2 harg2 arg3 harg3 arg4 harg4 arg5 harg5 arg6 harg6 arg7 harg7 arg8 harg8 arg9 harg9 hc0 hc1 x0 x1 xs0 xs1 xs2).trans
    ((upd2 x0 x1 i (n + 1) hi0 hi1 xs2).trans e3)

/-! ## The induction over the walk -/

/-- After point n each running total is the zero word plus the tile sums of points 0 … n. -/
theorem totals_eq (c : Dev nD) : ∀ (n : ℕ) (h : n < cfg0.N),
    (outsAt0 m c n h).2.2.2.1 = accOf (xs m c) (xs m c) n
    ∧ (outsAt0 m c n h).2.2.2.2.1 = accOf (ys m c) (ys m c) n
    ∧ (outsAt0 m c n h).2.2.2.2.2 = accOf (xs m c) (ys m c) n
  | 0, h => by
    have hA : outsAt0 m c 0 h = _ := outsAt0_A m c ⟨0, h⟩ (Nat.zero_mod _) (by dsimp only; omega)
    rw [hA]
    dsimp only
    exact ⟨stepA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr (Nat.zero_mod _)) (fun hh => absurd ((hcond0_1 ⟨0, h⟩).mp hh) (by dsimp only; omega)) (iblk m c 0 ⟨0, h⟩) (iblk m c 1 ⟨0, h⟩) (xs m c) (ys m c) (iblk0_eq m c ⟨0, h⟩) (iblk1_eq m c ⟨0, h⟩) (coords0 ⟨0, h⟩) (coords1 ⟨0, h⟩),
      stepA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr (Nat.zero_mod _)) (fun hh => absurd ((hcond0_1 ⟨0, h⟩).mp hh) (by dsimp only; omega)) (iblk m c 0 ⟨0, h⟩) (iblk m c 1 ⟨0, h⟩) (xs m c) (ys m c) (iblk0_eq m c ⟨0, h⟩) (iblk1_eq m c ⟨0, h⟩) (coords0 ⟨0, h⟩) (coords1 ⟨0, h⟩),
      stepA2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr (Nat.zero_mod _)) (fun hh => absurd ((hcond0_1 ⟨0, h⟩).mp hh) (by dsimp only; omega)) (iblk m c 0 ⟨0, h⟩) (iblk m c 1 ⟨0, h⟩) (xs m c) (ys m c) (iblk0_eq m c ⟨0, h⟩) (iblk1_eq m c ⟨0, h⟩) (coords0 ⟨0, h⟩) (coords1 ⟨0, h⟩)⟩
  | n + 1, h => by
    have ih := totals_eq c n (Nat.lt_of_succ_lt h)
    have hN : cfg0.N = 256 := N_0
    have h0 : ¬(⟨n + 1, h⟩ : Fin cfg0.N).val % 256 = 0 := by dsimp only; omega
    by_cases h1 : (⟨n + 1, h⟩ : Fin cfg0.N).val % 256 = 255
    · have hC : outsAt0 m c (n + 1) h = _ := outsAt0_C m c ⟨n + 1, h⟩ h0 h1
      rw [hC]
      dsimp only
      exact ⟨stepC0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.1 (coords0 ⟨n + 1, h⟩) (coords1 ⟨n + 1, h⟩),
        stepC1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.2.1 (coords0 ⟨n + 1, h⟩) (coords1 ⟨n + 1, h⟩),
        stepC2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.2.2 (coords0 ⟨n + 1, h⟩) (coords1 ⟨n + 1, h⟩)⟩
    · have hB : outsAt0 m c (n + 1) h = _ := outsAt0_B m c ⟨n + 1, h⟩ h0 h1
      rw [hB]
      dsimp only
      exact ⟨stepB0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.1 (coords0 ⟨n + 1, h⟩) (coords1 ⟨n + 1, h⟩),
        stepB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.2.1 (coords0 ⟨n + 1, h⟩) (coords1 ⟨n + 1, h⟩),
        stepB2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.2.2 (coords0 ⟨n + 1, h⟩) (coords1 ⟨n + 1, h⟩)⟩

/-- At the point that closes the walk the three outputs receive the three totals. -/
theorem outs_at (c : Dev nD) (n : ℕ) (h : n + 1 < cfg0.N) (h1 : (⟨n + 1, h⟩ : Fin cfg0.N).val % 256 = 255) :
    (outsAt0 m c (n + 1) h).1 = accOf (xs m c) (xs m c) (n + 1)
    ∧ (outsAt0 m c (n + 1) h).2.1 = accOf (ys m c) (ys m c) (n + 1)
    ∧ (outsAt0 m c (n + 1) h).2.2.1 = accOf (xs m c) (ys m c) (n + 1) := by
  have ih := totals_eq m c n (Nat.lt_of_succ_lt h)
  have hN : cfg0.N = 256 := N_0
  have h0 : ¬(⟨n + 1, h⟩ : Fin cfg0.N).val % 256 = 0 := by dsimp only; omega
  have hC : outsAt0 m c (n + 1) h = _ := outsAt0_C m c ⟨n + 1, h⟩ h0 h1
  rw [hC]
  dsimp only
  exact ⟨outC0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.1 (coords0 ⟨n + 1, h⟩) (coords1 ⟨n + 1, h⟩),
    outC1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.2.1 (coords0 ⟨n + 1, h⟩) (coords1 ⟨n + 1, h⟩),
    outC2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.2.1 (outsAt0 m c n (Nat.lt_of_succ_lt h)).2.2.2.2.1 (outsAt0 m c n (Nat.lt_of_succ_lt h)).2.2.2.2.2 (xs m c) (ys m c) (iblk0_eq m c ⟨n + 1, h⟩) (iblk1_eq m c ⟨n + 1, h⟩) n ih.2.2 (coords0 ⟨n + 1, h⟩) (coords1 ⟨n + 1, h⟩)⟩

/-- After the last point the three outputs hold the three totals over all 256 points. -/
theorem outs_last (c : Dev nD) :
    (outsAt0 m c 255 lastPoint).1 = accOf (xs m c) (xs m c) 255
    ∧ (outsAt0 m c 255 lastPoint).2.1 = accOf (ys m c) (ys m c) 255
    ∧ (outsAt0 m c 255 lastPoint).2.2.1 = accOf (xs m c) (ys m c) 255 :=
  outs_at m c 254 lastPoint (by decide)

end Cert.KernelIdeal.RunValue

end
-- ==== Proof.Tail.lean ====
/-
  From the three totals after the last grid point to the program's result.

  Each of the three output arrays has shape [1,1] and is written back once, at the last grid point, where its block is
  the whole array; so after the run it holds the running total of its pair of arrays over all 256 points.  The thirteen
  host operations after the region read each array's one element, divide it by 2²⁶, add the first two quotients and
  subtract twice the third.  The 256 tile sums add up to the sum over all pairs of rows, so the result is the
  specification's value.  The two argument arrays are never written.
-/
import proofs.«146267_j26096221290993_1_alg».proof.Proof.KernelRun
import proofs.«146267_j26096221290993_1_alg».proof.Proof.Spec
import proofs.«146267_j26096221290993_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem

namespace Cert.KernelIdeal.RunValue

open Cert.KernelIdeal Cert.KernelIdeal.Gen Cert.Mmd

variable (m : (ℓ : Loc nD τ sig) → Buf (Elt Ideal) ℓ) (ρ : Dev nD → PrngReg)

/-- The last grid point. -/
abbrev tLast : Fin cfg0.N := ⟨255, lastPoint⟩

/-! ## The first output array: the x–x total -/

theorem hz2 : (fun a => win0_2.index tLast a * main_v0_0.ty.shape.size a) = fun _ => 0 :=
  funext fun a => by fin_cases a <;> decide

/-- Output window 2's block at the last point is the whole [1,1] array: any contents cut to that block are the
    contents read through it. -/
theorem cut2_eq (c : Dev nD) (G : Buf (Elt Ideal) ((c.tc : Thread nD τ).loc main_v0_0)) :
    (cfg0.win 2).cut (grid0.coords tLast) G = ((cfg0.win 2).blk tLast).view.read (Elt Ideal) G :=
  (Memref.read_access_unit_zero (Elt Ideal) main_v0_0 hz2 (fun a => by rw [congrFun hz2 a]; simp) G).symm

/-- The x–x total after the last point, as contents of the first output array. -/
abbrev resXX (c : Dev nD) : Buf (Elt Ideal) ((c.tc : Thread nD τ).loc main_v0_0) := accOf (xs m c) (xs m c) 255

/-- The one write-back of output window 2, at the last point, writes the x–x total. -/
theorem flushed2_eq (c : Dev nD) (t : Fin cfg0.N) (hf : (cfg0.win 2).flush t = true) :
    (dats m 0 c).flushed 2 t = ((cfg0.win 2).blk t).view.read (Elt Ideal) (resXX m c) := by
  have hN : cfg0.N = 256 := N_0
  have h3 : t.val = 255 := by have := (flush0_2 t).mp hf; have := t.isLt; omega
  obtain rfl : t = tLast := Fin.ext h3
  have e : outsAt0 m c tLast.val tLast.isLt = outsAt0 m c 255 lastPoint := rfl
  have hl : (dats m 0 c).after 2 tLast = resXX m c := by
    rw [after0_2, e]; exact (outs_last m c).1
  show (cfg0.win 2).cut (grid0.coords tLast) ((dats m 0 c).after 2 tLast) = _
  rw [hl]
  exact cut2_eq c (resXX m c)

/-- Every index of the [1,1] array lies in output window 2's block at the last point. -/
theorem mem_blk2 (c : Dev nD) (i : ((cfg0.win 2).arr.view.loc (c.tc : Thread nD τ)).2.ty.Idx) :
    i ∈ ((cfg0.win 2).blk tLast).view.set := by
  show i ∈ ((View.whole main_v0_0).slice (win0_2.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index tLast 0 * win0_2.size 0 ≤ (i 0 : Nat)
      ∧ (i 0 : Nat) < win0_2.index tLast 0 * win0_2.size 0 + win0_2.xsize (grid0.coords tLast) 0
    rw [show win0_2.index tLast 0 * win0_2.size 0 = 0 from by decide +kernel,
      show win0_2.xsize (grid0.coords tLast) 0 = 1 from by decide +kernel]
    omega
  | ⟨1, _⟩ =>
    show win0_2.index tLast 1 * win0_2.size 1 ≤ (i 1 : Nat)
      ∧ (i 1 : Nat) < win0_2.index tLast 1 * win0_2.size 1 + win0_2.xsize (grid0.coords tLast) 1
    rw [show win0_2.index tLast 1 * win0_2.size 1 = 0 from by decide +kernel,
      show win0_2.xsize (grid0.coords tLast) 1 = 1 from by decide +kernel]
    omega

/-- So the first output array ends holding the x–x total. -/
theorem final2 (c : Dev nD) : (dats m 0 c).arrAt 2 cfg0.N = resXX m c :=
  (dats m 0 c).arrAt_eq_of_cover 2 (resXX m c) (flushed2_eq m c) fun i =>
    ⟨tLast, (flush0_2 tLast).mpr rfl, mem_blk2 c i⟩

/-! ## The second output array: the y–y total -/

theorem hz3 : (fun a => win0_3.index tLast a * main_v0_1.ty.shape.size a) = fun _ => 0 :=
  funext fun a => by fin_cases a <;> decide

/-- Output window 3's block at the last point is the whole [1,1] array. -/
theorem cut3_eq (c : Dev nD) (G : Buf (Elt Ideal) ((c.tc : Thread nD τ).loc main_v0_1)) :
    (cfg0.win 3).cut (grid0.coords tLast) G = ((cfg0.win 3).blk tLast).view.read (Elt Ideal) G :=
  (Memref.read_access_unit_zero (Elt Ideal) main_v0_1 hz3 (fun a => by rw [congrFun hz3 a]; simp) G).symm

/-- The y–y total after the last point, as contents of the second output array. -/
abbrev resYY (c : Dev nD) : Buf (Elt Ideal) ((c.tc : Thread nD τ).loc main_v0_1) := accOf (ys m c) (ys m c) 255

/-- The one write-back of output window 3, at the last point, writes the y–y total. -/
theorem flushed3_eq (c : Dev nD) (t : Fin cfg0.N) (hf : (cfg0.win 3).flush t = true) :
    (dats m 0 c).flushed 3 t = ((cfg0.win 3).blk t).view.read (Elt Ideal) (resYY m c) := by
  have hN : cfg0.N = 256 := N_0
  have h3 : t.val = 255 := by have := (flush0_3 t).mp hf; have := t.isLt; omega
  obtain rfl : t = tLast := Fin.ext h3
  have e : outsAt0 m c tLast.val tLast.isLt = outsAt0 m c 255 lastPoint := rfl
  have hl : (dats m 0 c).after 3 tLast = resYY m c := by
    rw [after0_3, e]; exact (outs_last m c).2.1
  show (cfg0.win 3).cut (grid0.coords tLast) ((dats m 0 c).after 3 tLast) = _
  rw [hl]
  exact cut3_eq c (resYY m c)

/-- Every index of the [1,1] array lies in output window 3's block at the last point. -/
theorem mem_blk3 (c : Dev nD) (i : ((cfg0.win 3).arr.view.loc (c.tc : Thread nD τ)).2.ty.Idx) :
    i ∈ ((cfg0.win 3).blk tLast).view.set := by
  show i ∈ ((View.whole main_v0_1).slice (win0_3.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index tLast 0 * win0_3.size 0 ≤ (i 0 : Nat)
      ∧ (i 0 : Nat) < win0_3.index tLast 0 * win0_3.size 0 + win0_3.xsize (grid0.coords tLast) 0
    rw [show win0_3.index tLast 0 * win0_3.size 0 = 0 from by decide +kernel,
      show win0_3.xsize (grid0.coords tLast) 0 = 1 from by decide +kernel]
    omega
  | ⟨1, _⟩ =>
    show win0_3.index tLast 1 * win0_3.size 1 ≤ (i 1 : Nat)
      ∧ (i 1 : Nat) < win0_3.index tLast 1 * win0_3.size 1 + win0_3.xsize (grid0.coords tLast) 1
    rw [show win0_3.index tLast 1 * win0_3.size 1 = 0 from by decide +kernel,
      show win0_3.xsize (grid0.coords tLast) 1 = 1 from by decide +kernel]
    omega

/-- So the second output array ends holding the y–y total. -/
theorem final3 (c : Dev nD) : (dats m 0 c).arrAt 3 cfg0.N = resYY m c :=
  (dats m 0 c).arrAt_eq_of_cover 3 (resYY m c) (flushed3_eq m c) fun i =>
    ⟨tLast, (flush0_3 tLast).mpr rfl, mem_blk3 c i⟩

/-! ## The third output array: the x–y total -/

theorem hz4 : (fun a => win0_4.index tLast a * main_v0_2.ty.shape.size a) = fun _ => 0 :=
  funext fun a => by fin_cases a <;> decide

/-- Output window 4's block at the last point is the whole [1,1] array. -/
theorem cut4_eq (c : Dev nD) (G : Buf (Elt Ideal) ((c.tc : Thread nD τ).loc main_v0_2)) :
    (cfg0.win 4).cut (grid0.coords tLast) G = ((cfg0.win 4).blk tLast).view.read (Elt Ideal) G :=
  (Memref.read_access_unit_zero (Elt Ideal) main_v0_2 hz4 (fun a => by rw [congrFun hz4 a]; simp) G).symm

/-- The x–y total after the last point, as contents of the third output array. -/
abbrev resXY (c : Dev nD) : Buf (Elt Ideal) ((c.tc : Thread nD τ).loc main_v0_2) := accOf (xs m c) (ys m c) 255

/-- The one write-back of output window 4, at the last point, writes the x–y total. -/
theorem flushed4_eq (c : Dev nD) (t : Fin cfg0.N) (hf : (cfg0.win 4).flush t = true) :
    (dats m 0 c).flushed 4 t = ((cfg0.win 4).blk t).view.read (Elt Ideal) (resXY m c) := by
  have hN : cfg0.N = 256 := N_0
  have h3 : t.val = 255 := by have := (flush0_4 t).mp hf; have := t.isLt; omega
  obtain rfl : t = tLast := Fin.ext h3
  have e : outsAt0 m c tLast.val tLast.isLt = outsAt0 m c 255 lastPoint := rfl
  have hl : (dats m 0 c).after 4 tLast = resXY m c := by
    rw [after0_4, e]; exact (outs_last m c).2.2
  show (cfg0.win 4).cut (grid0.coords tLast) ((dats m 0 c).after 4 tLast) = _
  rw [hl]
  exact cut4_eq c (resXY m c)

/-- Every index of the [1,1] array lies in output window 4's block at the last point. -/
theorem mem_blk4 (c : Dev nD) (i : ((cfg0.win 4).arr.view.loc (c.tc : Thread nD τ)).2.ty.Idx) :
    i ∈ ((cfg0.win 4).blk tLast).view.set := by
  show i ∈ ((View.whole main_v0_2).slice (win0_4.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_4.index tLast 0 * win0_4.size 0 ≤ (i 0 : Nat)
      ∧ (i 0 : Nat) < win0_4.index tLast 0 * win0_4.size 0 + win0_4.xsize (grid0.coords tLast) 0
    rw [show win0_4.index tLast 0 * win0_4.size 0 = 0 from by decide +kernel,
      show win0_4.xsize (grid0.coords tLast) 0 = 1 from by decide +kernel]
    omega
  | ⟨1, _⟩ =>
    show win0_4.index tLast 1 * win0_4.size 1 ≤ (i 1 : Nat)
      ∧ (i 1 : Nat) < win0_4.index tLast 1 * win0_4.size 1 + win0_4.xsize (grid0.coords tLast) 1
    rw [show win0_4.index tLast 1 * win0_4.size 1 = 0 from by decide +kernel,
      show win0_4.xsize (grid0.coords tLast) 1 = 1 from by decide +kernel]
    omega

/-- So the third output array ends holding the x–y total. -/
theorem final4 (c : Dev nD) : (dats m 0 c).arrAt 4 cfg0.N = resXY m c :=
  (dats m 0 c).arrAt_eq_of_cover 4 (resXY m c) (flushed4_eq m c) fun i =>
    ⟨tLast, (flush0_4 tLast).mpr rfl, mem_blk4 c i⟩

/-! ## The host operations after the region -/

/-- What the thirteen operations after the region leave in the result, from the one element of each of the three
    output arrays: each is divided by 2²⁶, the first two quotients are added, and twice the third is subtracted. -/
theorem tail_of (W : Valuation τ sig (Elt Ideal)) (a b d : EReal)
    (h2 : W (Proc.devRef .tc main_v0_0) = fun _ => a)
    (h3 : W (Proc.devRef .tc main_v0_1) = fun _ => b)
    (h4 : W (Proc.devRef .tc main_v0_2) = fun _ => d) :
    StableHlo.after (hostOps1 (F := Ideal)) W (Proc.devRef .tc main_v9)
      = fun _ => (Ideal.div a (Ideal.ofBits .f32 0x4C800000#32) + Ideal.div b (Ideal.ofBits .f32 0x4C800000#32))
          - Ideal.ofBits .f32 0x40000000#32 * Ideal.div d (Ideal.ofBits .f32 0x4C800000#32) := by
  after_results
  rw [h2, h3, h4]
  rfl

/-- The one element of a running total after point n. -/
def accVal (a b : FVec Ideal S8192x128 .f32) (n : ℕ) : EReal :=
  Ideal.ofBits .f32 0x00000000#32 + ∑ s ∈ Finset.range (n + 1), tileAt a b s

theorem accOf_eq (a b : FVec Ideal S8192x128 .f32) (n : ℕ) : accOf a b n = fun _ => accVal a b n := rfl

/-- After the last of the 256 points a running total is the zero word plus the sum over all pairs of rows. -/
theorem accVal_last (a b : FVec Ideal S8192x128 .f32) :
    accVal a b 255 = Ideal.ofBits .f32 0x00000000#32 + total a b := by
  unfold accVal
  rw [show (255 + 1 : ℕ) = 256 from rfl, sum_points]

/-- The three means combined are the specification's value. -/
theorem means_eq (x y : FVec Ideal S8192x128 .f32) :
    (Ideal.div (accVal x x 255) (Ideal.ofBits .f32 0x4C800000#32) + Ideal.div (accVal y y 255) (Ideal.ofBits .f32 0x4C800000#32))
      - Ideal.ofBits .f32 0x40000000#32 * Ideal.div (accVal x y 255) (Ideal.ofBits .f32 0x4C800000#32) = mmd x y := by
  rw [accVal_last, accVal_last, accVal_last]
  rfl

/-! ## The result of the run -/

/-- The buffers as the region leaves them: the pipeline's arrays at what the run computes, the rest untouched. -/
abbrev afterRegion (c : Dev nD) : Valuation τ sig (Elt Ideal) :=
  Pipeline.withArrays (cfgs 0).spec c (V0 m c) fun w => (dats m 0 c).arrAt w (cfgs 0).N

theorem afterRegion_xx (c : Dev nD) :
    afterRegion m c (Proc.devRef .tc main_v0_0) = fun _ => accVal (xs m c) (xs m c) 255 :=
  (Pipeline.withArrays_arr spec0 launch0.win.arr_inj c _ _ 2).trans ((final2 m c).trans (accOf_eq _ _ _))

theorem afterRegion_yy (c : Dev nD) :
    afterRegion m c (Proc.devRef .tc main_v0_1) = fun _ => accVal (ys m c) (ys m c) 255 :=
  (Pipeline.withArrays_arr spec0 launch0.win.arr_inj c _ _ 3).trans ((final3 m c).trans (accOf_eq _ _ _))

theorem afterRegion_xy (c : Dev nD) :
    afterRegion m c (Proc.devRef .tc main_v0_2) = fun _ => accVal (xs m c) (ys m c) 255 :=
  (Pipeline.withArrays_arr spec0 launch0.win.arr_inj c _ _ 4).trans ((final4 m c).trans (accOf_eq _ _ _))

/-- The result buffer after the host operations that follow the region holds the specification's value. -/
theorem tail_result (c : Dev nD) :
    Pipeline.afterTail₀ cfgs (dats m) 0 (V0 m) [hostOps1] c main_v9 = fun _ => mmd (xs m c) (ys m c) := by
  unfold Pipeline.afterTail₀
  show StableHlo.after hostOps1 (afterRegion m c) (Proc.devRef .tc main_v9) = _
  rw [tail_of (afterRegion m c) _ _ _ (afterRegion_xx m c) (afterRegion_yy m c) (afterRegion_xy m c), means_eq]

/-- The result buffer is unscoped and is no window's array. -/
theorem v9_rest : main_v9 ∈ Pipeline.restRefs sig (cfgs 0).spec :=
  Pipeline.mem_restRefs_of main_v9 rfl (fun w => by fin_cases w <;> decide)

/-- The run, read: the result at the specification's value of the two argument arrays, the arguments unchanged. -/
theorem run : θ_run (defs (F := Ideal)) (onTc (τ := τ) (main (F := Ideal))) ⟨m, fun _ => 0, ρ⟩ fun r => ∀ c : Dev nD,
      r.2.mem ((c.tc : Thread nD τ).loc main_v9) = (fun _ => Cert.Mmd.mmd (xs m c) (ys m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v9 v9_rest).trans (tail_result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue

end
-- ==== Proof.lean ====
/-
  The kernel computes the MMD loss of two arrays x, y of 8192 rows and 128 columns,

      mean K(x,x) + mean K(y,y) - 2 · mean K(x,y),   K(a,b)[r,s] = exp(-1/2 · dist(a_r, b_s)),

  by walking a 16 × 16 grid of 512 × 512 tiles of each kernel matrix and adding every tile's sum to a running
  total; the reference builds the three 8192 × 8192 matrices whole and takes their means.  Over the extended reals
  both are the same number: entry by entry the two programs apply the same operations to the same rows (a change of
  float format is the identity, an inner product accumulated from zero is the plain sum), and the total over all
  pairs of rows is the sum over the tiles of the tile sums, addition being commutative and associative.  No
  finiteness of the inputs is used.

  The three frames are the programs' runs with the results forgotten; the idealization rewrote nothing, so
  the kernel's idealization is the kernel's own text read over the extended reals.
-/
import proofs.«146267_j26096221290993_1_alg».proof.Defs
import proofs.«146267_j26096221290993_1_alg».proof.Proof.Gen.Kernel
import proofs.«146267_j26096221290993_1_alg».proof.Proof.Gen.Kernel.Frame
import proofs.«146267_j26096221290993_1_alg».proof.Proof.Gen.KernelIdeal
import proofs.«146267_j26096221290993_1_alg».proof.Proof.Gen.KernelIdeal.Frame
import proofs.«146267_j26096221290993_1_alg».proof.Proof.Gen.ReferenceIdeal
import proofs.«146267_j26096221290993_1_alg».proof.Proof.Gen.ReferenceIdeal.Run
import proofs.«146267_j26096221290993_1_alg».proof.Proof.Gen.ReferenceIdeal.Read
import proofs.«146267_j26096221290993_1_alg».proof.Proof.Gen.Pre_finite_inputs
import proofs.«146267_j26096221290993_1_alg».proof.Proof.RefValue
import proofs.«146267_j26096221290993_1_alg».proof.Proof.Tail
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's value of their (agreeing) arguments. -/
theorem algebraic : Cert.algebraic_KernelIdeal_ReferenceIdeal := by
  intro m ρ m' ρ' _ hagree
  refine ⟨fun c _ => Cert.Mmd.mmd (Cert.KernelIdeal.RunValue.xs m c) (Cert.KernelIdeal.RunValue.ys m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, Cert.ReferenceIdeal.RefValue.val_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
